-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x64 : Shape := ⟨3, ![8192, 64, 64]⟩
abbrev S8192x64x1 : Shape := ⟨3, ![8192, 64, 1]⟩
abbrev S_ : Shape := ⟨0, ![]⟩

class Facts : Prop where
  bcast_S_S8192x64x1 : S_.BroadcastsInDim S8192x64x1 (![] : Fin 0 → Fin S8192x64x1.rank)
  reducesTo_S8192x64x1_S_d0_1_2 : S8192x64x1.ReducesTo [0, 1, 2] S_
  h_S_ : 0 < S_.numel

variable [Facts]

def fn {F : FTy → Type} [FloatOps F] (main_arg0 : IVec S8192x64x64 32) (main_arg1 : FVec F S8192x64x1 .f32) : IVec S_ 1 :=
  let main_v0 : FVec F S8192x64x1 .f32 := Host.absf main_arg1
  let main_cst : FVec F S_ .f32 := constant S_ .f32 0x7F800000#32
  let main_v1 : FVec F S8192x64x1 .f32 := broadcastInDim S8192x64x1 ![] bcast_S_S8192x64x1 main_cst
  let main_v2 : IVec S8192x64x1 1 := cmpf .olt main_v0 main_v1
  let main_c : IVec S_ 1 := constantI S_ 1 1#1
  let main_v3 : IVec S_ 1 := (fun x v => Host.reduce IntOp.andi x v reducesTo_S8192x64x1_S_d0_1_2 h_S_) main_v2 main_c
  main_v3
-- ==== Kernel.lean ====
abbrev S8192x64x64 : Shape := ⟨3, ![8192, 64, 64]⟩
abbrev S8192x64x1 : Shape := ⟨3, ![8192, 64, 1]⟩
abbrev S8192x64x128 : Shape := ⟨3, ![8192, 64, 128]⟩
abbrev S64x64x64 : Shape := ⟨3, ![64, 64, 64]⟩
abbrev S64x64x1 : Shape := ⟨3, ![64, 64, 1]⟩
abbrev S64x64x128 : Shape := ⟨3, ![64, 64, 128]⟩
abbrev S64x8x64 : Shape := ⟨3, ![64, 8, 64]⟩
abbrev S64x8x1 : Shape := ⟨3, ![64, 8, 1]⟩
abbrev S64x8x64x1 : Shape := ⟨4, ![64, 8, 64, 1]⟩
abbrev S64x8x64x2 : Shape := ⟨4, ![64, 8, 64, 2]⟩
abbrev S64x8x128 : Shape := ⟨3, ![64, 8, 128]⟩
abbrev S8192x8192 : Shape := ⟨2, ![8192, 8192]⟩

abbrev nBuf : Space → Nat
  | .hbm => 4
  | .vmem => 6
  | .smem => 0
  | _ => 0

abbrev bufTy : (tb : Table) → Fin (tcTables nBuf tb) → BufTy
  | .hbm, ⟨0, _⟩ => ⟨S8192x64x64, .i32⟩
  | .hbm, ⟨1, _⟩ => ⟨S8192x64x1, .f32⟩
  | .hbm, ⟨2, _⟩ => ⟨S8192x64x128, .f32⟩
  | .hbm, ⟨3, _⟩ => ⟨S8192x8192, .f32⟩
  | .local _ .vmem, ⟨0, _⟩ => ⟨S64x64x64, .i32⟩
  | .local _ .vmem, ⟨1, _⟩ => ⟨S64x64x64, .i32⟩
  | .local _ .vmem, ⟨2, _⟩ => ⟨S64x64x1, .f32⟩
  | .local _ .vmem, ⟨3, _⟩ => ⟨S64x64x1, .f32⟩
  | .local _ .vmem, ⟨4, _⟩ => ⟨S64x64x128, .f32⟩
  | .local _ .vmem, ⟨5, _⟩ => ⟨S64x64x128, .f32⟩
  | _, _ => ⟨S8192x64x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  v1
def k0_off1 (k0_t1 : Fin k0_t1_loop.trips) : Fin 3 → Nat :=
  let c0 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v3 : Index := Scalar.indexCast v2
  let c0_2 : Index := 0#32
  ![0, v3.toNat, 0]
def k0_off2 (k0_t1 : Fin k0_t1_loop.trips) : Fin 3 → Nat :=
  let c0_3 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v5 : Index := Scalar.indexCast v2
  let c0_4 : Index := 0#32
  ![0, v5.toNat, 0]
def k0_off3 (k0_t1 : Fin k0_t1_loop.trips) : Fin 3 → Nat :=
  let c0_8 : Index := 0#32
  let c0_i32 : BitVec 32 := 0#32
  let c1_i32 : BitVec 32 := 1#32
  let arg4 : BitVec 32 := Scf.iv c0_i32 c1_i32 k0_t1
  let c8_i32_1 : BitVec 32 := 8#32
  let v1 : BitVec 32 := Scalar.muli arg4 c8_i32_1
  let v2 : BitVec 32 := v1
  let v27 : Index := Scalar.indexCast v2
  let c0_9 : Index := 0#32
  ![0, v27.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S64x8x64 : 0 < S64x8x64.numel
  h_S64x8x1 : 0 < S64x8x1.numel
  broadcasts_S64x8x1_S64x8x64 : S64x8x1.Broadcasts S64x8x64
  shapeCasts_S64x8x64_S64x8x64x1 : S64x8x64.ShapeCasts S64x8x64x1
  concatenates_S64x8x64x1_S64x8x64x1_S64x8x64x2_d3 : Shape.Concatenates [S64x8x64x1, S64x8x64x1] S64x8x64x2 3
  shapeCasts_S64x8x64x2_S64x8x128 : S64x8x64x2.ShapeCasts S64x8x128
  h_S64x8x128 : 0 < S64x8x128.numel
  shapeCasts_S8192x64x128_S8192x8192 : S8192x64x128.ShapeCasts S8192x8192
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S64x8x64.size a ≤ S64x64x64.size a
  k0_off2_inb : ∀ k0_t1 : Fin k0_t1_loop.trips, ∀ a, (k0_off2 k0_t1) a + S64x8x1.size a ≤ S64x64x1.size a
  k0_off3_inb : ∀ k0_t1 : Fin k0_t1_loop.trips, ∀ a, (k0_off3 k0_t1) a + S64x8x128.size a ≤ S64x64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x64.size a ≤ S8192x64x64.size a
  hwx0_0 : ∀ i : grid0.Coords, EltTy.bits .i32 = 32 ∨ (Rect.block (s := S8192x64x64) S64x64x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x1.size a ≤ S8192x64x1.size a
  hwx0_1 : ∀ i : grid0.Coords, EltTy.bits .f32 = 32 ∨ (Rect.block (s := S8192x64x1) S64x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S8192x64x128.size a
  hwx0_2 : ∀ i : grid0.Coords, EltTy.bits .f32 = 32 ∨ (Rect.block (s := S8192x64x128) S64x64x128.size (cc0_transform_2 i) (hinb0_2 i)).WholeWords (EltTy.packing .f32)

variable [Facts₀]

abbrev win0_0 : Pipeline.Window sig grid0 :=
  Pipeline.Window.ofSpec (Memref.whole main_arg0) S64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64x64 : Shape := ⟨3, ![8192, 64, 64]⟩
abbrev S8192x64x1 : Shape := ⟨3, ![8192, 64, 1]⟩
abbrev S_ : Shape := ⟨0, ![]⟩
abbrev S8192x64x64x1 : Shape := ⟨4, ![8192, 64, 64, 1]⟩
abbrev S8192x64x64x2 : Shape := ⟨4, ![8192, 64, 64, 2]⟩
abbrev S8192x64x128 : Shape := ⟨3, ![8192, 64, 128]⟩
abbrev S8192x8192 : Shape := ⟨2, ![8192, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x64x64, .i32⟩
  | .hbm, ⟨1, _⟩ => ⟨S8192x64x1, .f32⟩
  | .hbm, ⟨2, _⟩ => ⟨S_, .i32⟩
  | .hbm, ⟨3, _⟩ => ⟨S8192x64x64, .i32⟩
  | .hbm, ⟨4, _⟩ => ⟨S8192x64x64, .i32⟩
  | .hbm, ⟨5, _⟩ => ⟨S_, .i32⟩
  | .hbm, ⟨6, _⟩ => ⟨S8192x64x64, .i32⟩
  | .hbm, ⟨7, _⟩ => ⟨S8192x64x64, .i32⟩
  | .hbm, ⟨8, _⟩ => ⟨S_, .i32⟩
  | .hbm, ⟨9, _⟩ => ⟨S8192x64x64, .i32⟩
  | .hbm, ⟨10, _⟩ => ⟨S8192x64x64, .i32⟩
  | .hbm, ⟨11, _⟩ => ⟨S_, .i32⟩
  | .hbm, ⟨12, _⟩ => ⟨S8192x64x64, .i32⟩
  | .hbm, ⟨13, _⟩ => ⟨S8192x64x64, .i32⟩
  | .hbm, ⟨14, _⟩ => ⟨S_, .i32⟩
  | .hbm, ⟨15, _⟩ => ⟨S8192x64x64, .i32⟩
  | .hbm, ⟨16, _⟩ => ⟨S8192x64x64, .i32⟩
  | .hbm, ⟨17, _⟩ => ⟨S8192x64x64x1, .i32⟩
  | .hbm, ⟨18, _⟩ => ⟨S8192x64x64x1, .i32⟩
  | .hbm, ⟨19, _⟩ => ⟨S8192x64x64x2, .i32⟩
  | .hbm, ⟨20, _⟩ => ⟨S8192x64x128, .i32⟩
  | .hbm, ⟨21, _⟩ => ⟨S8192x64x128, .f32⟩
  | .hbm, ⟨22, _⟩ => ⟨S8192x64x128, .f32⟩
  | .hbm, ⟨23, _⟩ => ⟨S8192x64x128, .f32⟩
  | .hbm, ⟨24, _⟩ => ⟨S8192x8192, .f32⟩
  | _, _ => ⟨S8192x64x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_c_2 : Ref sig .tc := ⟨.hbm, 11, rfl⟩
abbrev main_v6 : Ref sig .tc := ⟨.hbm, 12, rfl⟩
abbrev main_v7 : Ref sig .tc := ⟨.hbm, 13, rfl⟩
abbrev main_c_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S8192x64x64 : S_.BroadcastsInDim S8192x64x64 (![] : Fin 0 → Fin S8192x64x64.rank)
  bcast_S8192x64x64_S8192x64x64x1_0_1_2 : S8192x64x64.BroadcastsInDim S8192x64x64x1 (![0, 1, 2] : Fin 3 → Fin S8192x64x64x1.rank)
  concatenates_S8192x64x64x1_S8192x64x64x1_S8192x64x64x2_d3 : Shape.Concatenates [S8192x64x64x1, S8192x64x64x1] S8192x64x64x2 3
  shapeCasts_S8192x64x64x2_S8192x64x128 : S8192x64x64x2.ShapeCasts S8192x64x128
  bcast_S8192x64x1_S8192x64x128_0_1_2 : S8192x64x1.BroadcastsInDim S8192x64x128 (![0, 1, 2] : Fin 3 → Fin S8192x64x128.rank)
  shapeCasts_S8192x64x128_S8192x8192 : S8192x64x128.ShapeCasts S8192x8192

variable [Facts₀]

class Facts : Prop extends Facts₀ where

variable [Facts]
-- ==== Proof.Dequant.lean ====
/-
  What both programs compute, as one function of the two argument arrays.

  Every 32-bit word of `weight` packs two four-bit fields: the low four bits, and the four bits above
  them (reached by an arithmetic shift by four and the same mask). A field `f` stands for the signed
  number `f - 8` (offset binary). Group `(r, g)` holds 64 words, hence 128 numbers, interleaved: lane
  `l` of the group is the low field of word `l / 2` when `l` is even and the high field of the same word
  when `l` is odd. The result is that number, converted to a float, times the group's one scale
  `scale[r, g, 0]`.

  The function is stated over any leading extents `n` (rows) and `g` (groups), since the kernel meets it
  at three sizes: one trip of its loop (64 rows, 8 groups), one grid point's block (64 rows, 64 groups)
  and the whole array (8192 rows, 64 groups). It is stated at any float instance: nothing below uses
  more of the floats than the two operations named.
-/
import Idealize.ShloMosaic.PureOps
import Idealize.ShloMosaic.Lib.ValueIdx

noncomputable section

namespace Cert.Dequant

open Idealize.ShloMosaic Idealize.ShloMosaic.ValueIdx

variable {F : FTy → Type} [FloatOps F]

/-- The low field of a packed word, as a signed number: `(p & 15) - 8`. -/
def lowField (p : BitVec 32) : BitVec 32 := IntOp.subi (IntOp.andi p 15#32) 8#32

/-- The high field of a packed word, as a signed number: `((p >> 4) & 15) - 8`, the shift arithmetic. -/
def highField (p : BitVec 32) : BitVec 32 := IntOp.subi (IntOp.andi (IntOp.shrsi .vector p 4#32) 15#32) 8#32

/-- The field lane `l` reads of its word: the low one on even lanes, the high one on odd lanes. -/
def field (l : Nat) (p : BitVec 32) : BitVec 32 := if l % 2 = 0 then lowField p else highField p

/-- The word lane `(r, q, l)` reads: word `l / 2` of its group. -/
def wordIdx {n g : Nat} (j : (⟨3, ![n, g, 128]⟩ : Shape).Idx) : (⟨3, ![n, g, 64]⟩ : Shape).Idx :=
  ix3 (j 0) (j 1) ⟨(j 2).val / 2, by have h : (j 2).val < 128 := (j 2).isLt; omega⟩

/-- The scale lane `(r, q, l)` is multiplied by: its group's. -/
def scaleIdx {n g : Nat} (j : (⟨3, ![n, g, 128]⟩ : Shape).Idx) : (⟨3, ![n, g, 1]⟩ : Shape).Idx :=
  ix3 (j 0) (j 1) ⟨0, Nat.one_pos⟩

/-- THE DEQUANTISED ARRAY: at `(r, q, l)` the field lane `l` reads of word `(r, q, l / 2)`, as a float, times
    scale `(r, q, 0)`. -/
def deq {n g : Nat} (w : (⟨3, ![n, g, 64]⟩ : Shape).Idx → BitVec 32) (s : (⟨3, ![n, g, 1]⟩ : Shape).Idx → F .f32)
    (j : (⟨3, ![n, g, 128]⟩ : Shape).Idx) : F .f32 :=
  FloatOps.mulf (FloatOps.sitofp .f32 (field (j 2).val (w (wordIdx j)))) (s (scaleIdx j))

/-- An arithmetic right shift of a 32-bit word is the same function on the host and on the vector unit: below the
    width both are the signed shift, and from the width on both give the word of sign bits. -/
theorem shrsi_host (x y : BitVec 32) : IntOp.shrsi .host x y = IntOp.shrsi .vector x y := by
  simp [IntOp.shrsi, IntOp.cornerWord]

end Cert.Dequant

end
-- ==== Proof.Payload.lean ====
/-
  What one trip of the kernel's loop stores, index by index.

  The trip's stored value is built from the loaded words `v4` (64 rows, 8 groups, 64 words) and scales
  `v6` (64 rows, 8 groups, one scale) by pointwise integer and float operations, followed by three
  re-layouts: both field arrays get a trailing unit axis, are joined along it to `[64, 8, 64, 2]`, and that
  is flattened to `[64, 8, 128]`. Row-major positions are kept by the flattening, so lane `l` of the result
  is entry `(l / 2, l % 2)` of the joined array: the first (low-field) array at word `l / 2` when `l` is
  even, the second (high-field) array at word `l / 2` when `l` is odd. That is the dequantised array of the
  trip's own words and scales.
-/
import proofs.«431269_j74440373174409_4_alg».proof.Proof.Gen.KernelIdeal.Skeleton
import proofs.«431269_j74440373174409_4_alg».proof.Proof.Dequant
import Idealize.ShloMosaic.Lib.Pipeline.Value
import Idealize.ShloMosaic.Lib.ValueIdx

noncomputable section

namespace Cert.KernelIdeal.Unpack

open Idealize.ShloMosaic Idealize.ShloMosaic.ValueIdx Cert.KernelIdeal Cert.KernelIdeal.Gen Cert.Dequant

variable {F : FTy → Type} [FloatOps F]

/-- The scales broadcast along the word axis: entry `(a, b, k)` is scale `(a, b, 0)`. -/
theorem scale_bcast (v6 : Vec F S64x8x1 .f32) (a : Fin 64) (b : Fin 8) (k : Fin 64) :
    broadcastTo S64x8x64 v6 broadcasts_S64x8x1_S64x8x64 (ix3 a b k) = v6 (ix3 a b ⟨0, Nat.one_pos⟩) :=
  broadcastTo_apply v6 broadcasts_S64x8x1_S64x8x64 (ix3 a b k) (ix3 a b ⟨0, Nat.one_pos⟩) (fun d => match d with
    | ⟨0, _⟩ => by show a.val = if (64 : Nat) = 1 then 0 else a.val; rw [if_neg (by decide)]
    | ⟨1, _⟩ => by show b.val = if (8 : Nat) = 1 then 0 else b.val; rw [if_neg (by decide)]
    | ⟨2, _⟩ => by show 0 = if (1 : Nat) = 1 then 0 else k.val; rw [if_pos rfl])

/-- A trailing unit axis added: entry `(a, b, k, 0)` is entry `(a, b, k)`. -/
theorem add_unit (u : FVec F S64x8x64 .f32) (a : Fin 64) (b : Fin 8) (k : Fin 64) :
    shapeCast S64x8x64x1 u shapeCasts_S64x8x64_S64x8x64x1 (ix4 a b k ⟨0, Nat.one_pos⟩) = u (ix3 a b k) :=
  shapeCast_apply u shapeCasts_S64x8x64_S64x8x64x1 (ix4 a b k ⟨0, Nat.one_pos⟩) (ix3 a b k)
    (by rw [Shape.rowMajor_val_three, Shape.rowMajor_val_four]
        show (a.val * 8 + b.val) * 64 + k.val = ((a.val * 8 + b.val) * 64 + k.val) * 1 + 0; omega)

/-- The two field arrays joined along the trailing axis and flattened: lane `l` is the first array at word `l / 2`
    on even lanes, the second array there on odd lanes. -/
theorem interleave (u₀ u₁ : FVec F S64x8x64 .f32) (a : Fin 64) (b : Fin 8) (l : Fin 128) :
    shapeCast S64x8x128 (concatenate S64x8x64x2 3 [⟨S64x8x64x1, shapeCast S64x8x64x1 u₀ shapeCasts_S64x8x64_S64x8x64x1⟩,
        ⟨S64x8x64x1, shapeCast S64x8x64x1 u₁ shapeCasts_S64x8x64_S64x8x64x1⟩] concatenates_S64x8x64x1_S64x8x64x1_S64x8x64x2_d3)
      shapeCasts_S64x8x64x2_S64x8x128 (ix3 a b l)
    = if l.val % 2 = 0 then u₀ (ix3 a b ⟨l.val / 2, by omega⟩) else u₁ (ix3 a b ⟨l.val / 2, by omega⟩) := by
  have hl : l.val % 2 < 2 := Nat.mod_lt _ (by decide)
  refine (shapeCast_apply _ shapeCasts_S64x8x64x2_S64x8x128 (ix3 a b l) (ix4 a b ⟨l.val / 2, by omega⟩ ⟨l.val % 2, hl⟩)
    (by rw [Shape.rowMajor_val_four, Shape.rowMajor_val_three]
        show ((a.val * 8 + b.val) * 64 + l.val / 2) * 2 + l.val % 2 = (a.val * 8 + b.val) * 128 + l.val; omega)).trans ?_
  by_cases h : l.val % 2 = 0
  · rw [if_pos h]
    refine (concatenate_pair_apply_left 3 _ _ concatenates_S64x8x64x1_S64x8x64x1_S64x8x64x2_d3
      (ix4 a b ⟨l.val / 2, by omega⟩ ⟨l.val % 2, hl⟩) rfl (ix4 a b ⟨l.val / 2, by omega⟩ ⟨0, Nat.one_pos⟩)
      (fun d => match d with
        | ⟨0, _⟩ => rfl
        | ⟨1, _⟩ => rfl
        | ⟨2, _⟩ => rfl
        | ⟨3, _⟩ => h.symm)).trans ?_
    exact add_unit u₀ a b _
  · rw [if_neg h]
    refine (concatenate_pair_apply_right 3 _ _ concatenates_S64x8x64x1_S64x8x64x1_S64x8x64x2_d3
      (ix4 a b ⟨l.val / 2, by omega⟩ ⟨l.val % 2, hl⟩) rfl rfl (ix4 a b ⟨l.val / 2, by omega⟩ ⟨0, Nat.one_pos⟩)
      (fun d => match d with
        | ⟨0, _⟩ => fun _ => rfl
        | ⟨1, _⟩ => fun _ => rfl
        | ⟨2, _⟩ => fun _ => rfl
        | ⟨3, _⟩ => fun hne => absurd rfl hne)
      (by show 0 + 1 = l.val % 2; omega)).trans ?_
    exact add_unit u₁ a b _

/-- ONE TRIP'S STORED VALUE is the dequantised array of the trip's words and scales. -/
theorem pay_eq (v4 : Vec F S64x8x64 .i32) (v6 : Vec F S64x8x1 .f32) (x : S64x8x128.Idx) :
    k0_pay1 v4 v6 x = deq (n := 64) (g := 8) v4 v6 x := by
  obtain ⟨a, b, l, rfl⟩ : ∃ (a : Fin 64) (b : Fin 8) (l : Fin 128), x = ix3 a b l := ⟨x 0, x 1, x 2, eq_ix3 x⟩
  unfold k0_pay1
  refine (interleave _ _ a b l).trans ?_
  unfold deq field lowField highField
  by_cases h : l.val % 2 = 0
  · rw [if_pos h, if_pos h]
    show FloatOps.mulf _ (broadcastTo S64x8x64 v6 broadcasts_S64x8x1_S64x8x64 (ix3 a b ⟨l.val / 2, _⟩)) = _
    rw [scale_bcast]
    rfl
  · rw [if_neg h, if_neg h]
    show FloatOps.mulf _ (broadcastTo S64x8x64 v6 broadcasts_S64x8x1_S64x8x64 (ix3 a b ⟨l.val / 2, _⟩)) = _
    rw [scale_bcast]
    rfl

end Cert.KernelIdeal.Unpack

end
-- ==== Proof.Pieces.lean ====
/-
  What one grid point's run of the kernel body leaves in the output block.

  The body is a loop of eight trips. Trip `k` loads groups `8k … 8k+7` of the point's word block and of its
  scale block, and stores their dequantised values into the same groups of the output block; nothing else is
  stored. So every stored piece is a restriction of ONE function of the output block's index — the dequantised
  array of the point's two input blocks — and since the eight pieces tile the block, the block ends holding
  that function.
-/
import proofs.«431269_j74440373174409_4_alg».proof.Proof.Gen.KernelIdeal.Frame
import proofs.«431269_j74440373174409_4_alg».proof.Proof.Payload

set_option maxRecDepth 16384

noncomputable section

namespace Cert.KernelIdeal.Unpack

open Idealize.ShloMosaic Idealize.ShloMosaic.TcCoe Idealize.ShloMosaic.Tactic Idealize.ShloMosaic.ValueIdx
open Idealize.SL Idealize.SL.Sem
open Cert.KernelIdeal Cert.KernelIdeal.Gen Cert.Dequant

variable {F : FTy → Type} [FloatOps F]

section Trip

variable (𝒱 : Variants) (c : Dev nD) (bd : Option 𝒱.V) (i : grid0.Coords)
  (arg1 : Memref sig .tc .vmem S64x64x64 .i32) (harg1 : arg1.IsWhole)
  (arg2 : Memref sig .tc .vmem S64x64x1 .f32) (harg2 : arg2.IsWhole)
  (arg3 : Memref sig .tc .vmem S64x64x128 .f32) (harg3 : arg3.IsWhole)
  (X1 : BufTy.Contents (Elt F) arg1.view.ty) (X2 : BufTy.Contents (Elt F) arg2.view.ty)

/-- TRIP `k` STORES ONE PIECE: at groups `8k … 8k+7` of the output block, the trip's stored value of the words and
    scales loaded from the same groups of the two input blocks. -/
theorem trip_piece (k : Fin k0_t1_loop.trips) :
    tripL_k0_t1 (F := F) 𝒱 c bd i arg1 harg1 arg2 harg2 arg3 harg3 X1 X2 k
      = [(⟨Rect.unit (s := S64x64x128) (k0_off3 k) S64x8x128.size (k0_off3_inb k),
          k0_pay1 (View.ld (arg1.view.read (Elt F) X1) (Rect.unit (s := S64x64x64) (k0_off1 k) S64x8x64.size (k0_off1_inb k)))
            (View.ld (arg2.view.read (Elt F) X2) (Rect.unit (s := S64x64x1) (k0_off2 k) S64x8x1.size (k0_off2_inb k)))⟩ :
          View.Piece (Elt F) S64x64x128 .f32)] := by
  show (trip_k0_t1 (F := F) 𝒱 c bd i arg1 harg1 arg2 harg2 arg3 harg3 X1 X2 k).1 = _
  unfold trip_k0_t1
  rfl

/-- The value trip `k` stores, over blocks `x0` of words and `x1` of scales, is a restriction of the dequantised array of
    the two blocks: group `b` of the trip is group `8k + b` of the block — on the words, on the scales and on the output
    alike — and the row and the lane are kept. -/
theorem piece_agrees (x0 : Vec F S64x64x64 .i32) (x1 : Vec F S64x64x1 .f32) (k : Fin k0_t1_loop.trips) (x : S64x8x128.Idx) :
    k0_pay1 (View.ld x0 (Rect.unit (s := S64x64x64) (k0_off1 k) S64x8x64.size (k0_off1_inb k)))
        (View.ld x1 (Rect.unit (s := S64x64x1) (k0_off2 k) S64x8x1.size (k0_off2_inb k))) x
      = deq (n := 64) (g := 64) x0 x1 ((Rect.unit (s := S64x64x128) (k0_off3 k) S64x8x128.size (k0_off3_inb k)).emb x) := by
  have o10 : k0_off1 k 0 = 0 := congrFun (k0_off1_eq k) 0
  have o11 : k0_off1 k 1 = 8 * k.val := congrFun (k0_off1_eq k) 1
  have o12 : k0_off1 k 2 = 0 := congrFun (k0_off1_eq k) 2
  have o20 : k0_off2 k 0 = 0 := congrFun (k0_off2_eq k) 0
  have o21 : k0_off2 k 1 = 8 * k.val := congrFun (k0_off2_eq k) 1
  have o22 : k0_off2 k 2 = 0 := congrFun (k0_off2_eq k) 2
  have o30 : k0_off3 k 0 = 0 := congrFun (k0_off3_eq k) 0
  have o31 : k0_off3 k 1 = 8 * k.val := congrFun (k0_off3_eq k) 1
  have o32 : k0_off3 k 2 = 0 := congrFun (k0_off3_eq k) 2
  refine (pay_eq _ _ x).trans ?_
  have e1 : (Rect.unit (s := S64x64x64) (k0_off1 k) S64x8x64.size (k0_off1_inb k)).idx (wordIdx (n := 64) (g := 8) x)
      = wordIdx (n := 64) (g := 64) ((Rect.unit (s := S64x64x128) (k0_off3 k) S64x8x128.size (k0_off3_inb k)).emb x) := by
    funext a; apply Fin.ext
    match a with
    | ⟨0, _⟩ => show k0_off1 k 0 + 1 * (x 0).val = k0_off3 k 0 + 1 * (x 0).val; omega
    | ⟨1, _⟩ => show k0_off1 k 1 + 1 * (x 1).val = k0_off3 k 1 + 1 * (x 1).val; omega
    | ⟨2, _⟩ => show k0_off1 k 2 + 1 * ((x 2).val / 2) = (k0_off3 k 2 + 1 * (x 2).val) / 2; omega
  have e2 : (Rect.unit (s := S64x64x1) (k0_off2 k) S64x8x1.size (k0_off2_inb k)).idx (scaleIdx (n := 64) (g := 8) x)
      = scaleIdx (n := 64) (g := 64) ((Rect.unit (s := S64x64x128) (k0_off3 k) S64x8x128.size (k0_off3_inb k)).emb x) := by
    funext a; apply Fin.ext
    match a with
    | ⟨0, _⟩ => show k0_off2 k 0 + 1 * (x 0).val = k0_off3 k 0 + 1 * (x 0).val; omega
    | ⟨1, _⟩ => show k0_off2 k 1 + 1 * (x 1).val = k0_off3 k 1 + 1 * (x 1).val; omega
    | ⟨2, _⟩ => show k0_off2 k 2 + 1 * 0 = 0; omega
  have e3 : (((Rect.unit (s := S64x64x128) (k0_off3 k) S64x8x128.size (k0_off3_inb k)).emb x) 2).val = (x 2).val := by
    show k0_off3 k 2 + 1 * (x 2).val = (x 2).val; omega
  unfold deq
  show FloatOps.mulf (FloatOps.sitofp .f32 (field (x 2).val (x0 ((Rect.unit (s := S64x64x64) (k0_off1 k) S64x8x64.size (k0_off1_inb k)).idx (wordIdx (n := 64) (g := 8) x)))))
      (x1 ((Rect.unit (s := S64x64x1) (k0_off2 k) S64x8x1.size (k0_off2_inb k)).idx (scaleIdx (n := 64) (g := 8) x))) = _
  rw [e1, e2, e3]

/-- So the trip's piece agrees with the dequantised array of the two input blocks wherever it lies. -/
theorem trip_agrees (x0 : Vec F S64x64x64 .i32) (x1 : Vec F S64x64x1 .f32)
    (h1 : arg1.view.read (Elt F) X1 = x0) (h2 : arg2.view.read (Elt F) X2 = x1) (k : Fin k0_t1_loop.trips) :
    ∀ p ∈ tripL_k0_t1 (F := F) 𝒱 c bd i arg1 harg1 arg2 harg2 arg3 harg3 X1 X2 k,
      ∀ x : p.1.shape.Idx, p.2 x = deq (n := 64) (g := 64) x0 x1 (p.1.emb x) := by
  subst h1 h2
  intro p hp
  rw [trip_piece, List.mem_singleton] at hp
  subst hp
  intro x
  exact piece_agrees (arg1.view.read (Elt F) X1) (arg2.view.read (Elt F) X2) k x

/-- Every piece the trips before `n` stored is such a restriction: by induction over the trips. -/
theorem pb_agrees (x0 : Vec F S64x64x64 .i32) (x1 : Vec F S64x64x1 .f32)
    (h1 : arg1.view.read (Elt F) X1 = x0) (h2 : arg2.view.read (Elt F) X2 = x1) :
    ∀ n : Nat, ∀ p ∈ pb_k0_t1 (F := F) 𝒱 c bd i arg1 harg1 arg2 harg2 arg3 harg3 X1 X2 n,
      ∀ x : p.1.shape.Idx, p.2 x = deq (n := 64) (g := 64) x0 x1 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rename_i hn
      rcases List.mem_append.mp hp with h | h
      · exact trip_agrees 𝒱 c bd i arg1 harg1 arg2 harg2 arg3 harg3 X1 X2 x0 x1 h1 h2 ⟨n, hn⟩ p h
      · exact pb_agrees x0 x1 h1 h2 n p h
    · exact pb_agrees x0 x1 h1 h2 n p hp

end Trip

section Point

variable (c : Dev nD) (i : grid0.Coords)
  (arg1 : Memref sig .tc .vmem S64x64x64 .i32) (harg1 : arg1.IsWhole)
  (arg2 : Memref sig .tc .vmem S64x64x1 .f32) (harg2 : arg2.IsWhole)
  (arg3 : Memref sig .tc .vmem S64x64x128 .f32) (harg3 : arg3.IsWhole)
  (x0 : Vec F S64x64x64 .i32) (x1 : Vec F S64x64x1 .f32)

/-- The body's stores are the loop's: the pieces of all its trips, over the input blocks as the run holds them. -/
theorem run_pieces :
    (kernelRun0_A (F := F) c i arg1 harg1 arg2 harg2 arg3 harg3 x0 x1).1
      = pb_k0_t1 (F := F) Variants.none c none i arg1 harg1 arg2 harg2 arg3 harg3 (harg1.unread x0) (harg2.unread x1) k0_t1_loop.trips := by
  unfold kernelRun0_A
  dsimp only

/-- THE OUTPUT BLOCK AFTER THE BODY is the dequantised array of the point's word block and scale block. -/
theorem out_eq :
    out0_A_2 (F := F) c i arg1 harg1 arg2 harg2 arg3 harg3 x0 x1 = deq (n := 64) (g := 64) x0 x1 := by
  funext y
  unfold out0_A_2
  refine View.read_writes_apply_of_pieces VO0_2 _ (deq (n := 64) (g := 64) x0 x1) _ ?_ y
    (cover0_A_2 c i arg1 harg1 arg2 harg2 arg3 harg3 x0 x1 y)
  rw [run_pieces]
  exact pb_agrees Variants.none c none i arg1 harg1 arg2 harg2 arg3 harg3 (harg1.unread x0) (harg2.unread x1) x0 x1
    (harg1.read_unread x0) (harg2.read_unread x1) _

end Point

end Cert.KernelIdeal.Unpack

end
-- ==== Proof.KernelValue.lean ====
/-
  What the kernel's program leaves in its result.

  Grid point `t` (of 128) works on rows `64 t … 64 t + 63`: its word block, its scale block and its output
  block are those rows of the three arrays, all groups, all lanes. The output block ends holding the
  dequantised array of the two input blocks, which is therefore those rows of the dequantised array of
  the two whole arguments; the 128 output blocks tile the output array, so that array ends holding the
  dequantised array of the arguments. The one host operation after the region reshapes it to
  `[8192, 8192]`.
-/
import proofs.«431269_j74440373174409_4_alg».proof.Proof.Pieces
import Idealize.ShloMosaic.Lib.Pipeline.Value
import Idealize.ShloMosaic.Lib.StableHlo.Run

set_option maxRecDepth 16384

noncomputable section

namespace Cert.KernelIdeal.Unpack

open Idealize.ShloMosaic Idealize.ShloMosaic.TcCoe Idealize.ShloMosaic.Tactic Idealize.ShloMosaic.ValueIdx
open Idealize.SL Idealize.SL.Sem
open Cert.KernelIdeal Cert.KernelIdeal.Gen Cert.Dequant

variable {F : FTy → Type} [FloatOps F]

variable (m : (ℓ : Loc nD τ sig) → Buf (Elt F) ℓ) (ρ : Dev nD → PrngReg)

/-- The two argument arrays as the region finds them, and a point's two input blocks, at their literal types. -/
abbrev words (c : Dev nD) : Vec F S8192x64x64 .i32 := V m c main_arg0
abbrev scales (c : Dev nD) : Vec F S8192x64x1 .f32 := V m c main_arg1
abbrev wordBlock (c : Dev nD) (t : Fin cfg0.N) : Vec F S64x64x64 .i32 := iblk m c 0 t
abbrev scaleBlock (c : Dev nD) (t : Fin cfg0.N) : Vec F S64x64x1 .f32 := iblk m c 1 t

/-- The dequantised array of the arguments: what the output array ends holding. -/
abbrev whole (c : Dev nD) : Vec F S8192x64x128 .f32 := deq (n := 8192) (g := 64) (words m c) (scales m c)

/-- A point's input blocks are read off the arrays at the block's indices. -/
theorem wordBlock_apply (c : Dev nD) (t : Fin cfg0.N) (y : S64x64x64.Idx) :
    wordBlock m c t y = words m c (((cfg0.win 0).blk t).view.emb y) := rfl
theorem scaleBlock_apply (c : Dev nD) (t : Fin cfg0.N) (y : S64x64x1.Idx) :
    scaleBlock m c t y = scales m c (((cfg0.win 1).blk t).view.emb y) := rfl

/-- The printed index maps, decided over the grid: point `t`'s three blocks are block `(t, 0, 0)` of their arrays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of the dequantised array of the arguments: rows, groups and lanes of the
    point's blocks are rows `64 t + ·`, the same groups and the same lanes of the arrays. -/
theorem flushed_eq (c : Dev nD) (t : Fin cfg0.N) :
    (dats m 0 c).flushed 2 t = ((cfg0.win 2).blk t).view.read (Elt F) (whole m c) := by
  show (cfg0.win 2).cut (grid0.coords t) ((dats m 0 c).after 2 t) = _
  rw [after0_2]
  unfold outsAt0
  have e := out_eq (F := F) c (grid0.coords t) (ms0_0 t) (hs0_0 t) (ms0_1 t) (hs0_1 t) (ms0_2 t) (hs0_2 t)
    (wordBlock m c t) (scaleBlock m c t)
  rw [e]
  obtain ⟨a0, a1, a2, b0, b1, b2, c0, c1, c2⟩ := idx_facts t
  funext j
  show deq (n := 64) (g := 64) (wordBlock m c t) (scaleBlock m c t) j
    = deq (n := 8192) (g := 64) (words m c) (scales m c) (((cfg0.win 2).blk t).view.emb j)
  unfold deq
  rw [wordBlock_apply, scaleBlock_apply]
  have e1 : ((cfg0.win 0).blk t).view.emb (wordIdx (n := 64) (g := 64) j)
      = wordIdx (n := 8192) (g := 64) (((cfg0.win 2).blk t).view.emb j) := by
    funext a; apply Fin.ext
    match a with
    | ⟨0, _⟩ => show win0_0.index t (0 : Fin 3) * 64 + 1 * (j 0).val = win0_2.index t (0 : Fin 3) * 64 + 1 * (j 0).val; omega
    | ⟨1, _⟩ => show win0_0.index t (1 : Fin 3) * 64 + 1 * (j 1).val = win0_2.index t (1 : Fin 3) * 64 + 1 * (j 1).val; omega
    | ⟨2, _⟩ => show win0_0.index t (2 : Fin 3) * 64 + 1 * ((j 2).val / 2) = (win0_2.index t (2 : Fin 3) * 128 + 1 * (j 2).val) / 2; omega
  have e2 : ((cfg0.win 1).blk t).view.emb (scaleIdx (n := 64) (g := 64) j)
      = scaleIdx (n := 8192) (g := 64) (((cfg0.win 2).blk t).view.emb j) := by
    funext a; apply Fin.ext
    match a with
    | ⟨0, _⟩ => show win0_1.index t (0 : Fin 3) * 64 + 1 * (j 0).val = win0_2.index t (0 : Fin 3) * 64 + 1 * (j 0).val; omega
    | ⟨1, _⟩ => show win0_1.index t (1 : Fin 3) * 64 + 1 * (j 1).val = win0_2.index t (1 : Fin 3) * 64 + 1 * (j 1).val; omega
    | ⟨2, _⟩ => show win0_1.index t (2 : Fin 3) * 1 + 1 * 0 = 0; omega
  have e3 : ((((cfg0.win 2).blk t).view.emb j) 2).val = (j 2).val := by
    show win0_2.index t (2 : Fin 3) * 128 + 1 * (j 2).val = (j 2).val; omega
  rw [e1, e2, e3]

/-- An index of the output array is in point `t`'s block iff each coordinate is in the block's range on its axis. -/
theorem mem_blk (t : Fin cfg0.N) (i : S8192x64x128.Idx) :
    i ∈ ((cfg0.win 2).blk t).view.set ↔ ∀ a : Fin 3, win0_2.index t a * S64x64x128.size a ≤ (i a).val
      ∧ (i a).val < win0_2.index t a * S64x64x128.size a + S64x64x128.size a := by
  show i ∈ ((View.whole main_v0).slice (win0_2.rect t)).set ↔ _
  rw [View.set_slice_whole, Rect.mem_set_unit]
  exact Iff.rfl

/-- The blocks tile the output array: row `r` lies in the block of point `r / 64`. -/
theorem cover (i : S8192x64x128.Idx) :
    ∃ t : Fin cfg0.N, (cfg0.win 2).flush t = true ∧ i ∈ ((cfg0.win 2).blk t).view.set := by
  have hN : cfg0.N = 128 := N_0
  have h0 : (i 0).val < 8192 := (i 0).isLt
  have h1 : (i 1).val < 64 := (i 1).isLt
  have h2 : (i 2).val < 128 := (i 2).isLt
  refine ⟨⟨(i 0).val / 64, by omega⟩, flush0_2 _, ?_⟩
  rw [mem_blk]
  obtain ⟨-, -, -, -, -, -, c0, c1, c2⟩ := idx_facts ⟨(i 0).val / 64, by omega⟩
  intro a
  match a with
  | ⟨0, _⟩ => show win0_2.index _ (0 : Fin 3) * 64 ≤ (i 0).val ∧ (i 0).val < win0_2.index _ (0 : Fin 3) * 64 + 64; rw [c0]; show (i 0).val / 64 * 64 ≤ (i 0).val ∧ (i 0).val < (i 0).val / 64 * 64 + 64; omega
  | ⟨1, _⟩ => show win0_2.index _ (1 : Fin 3) * 64 ≤ (i 1).val ∧ (i 1).val < win0_2.index _ (1 : Fin 3) * 64 + 64; rw [c1]; omega
  | ⟨2, _⟩ => show win0_2.index _ (2 : Fin 3) * 128 ≤ (i 2).val ∧ (i 2).val < win0_2.index _ (2 : Fin 3) * 128 + 128; rw [c2]; omega

/-- THE OUTPUT ARRAY AFTER THE REGION is the dequantised array of the arguments. -/
theorem final (c : Dev nD) : (dats m 0 c).arrAt 2 cfg0.N = whole m c :=
  (dats m 0 c).arrAt_eq_of_cover 2 (whole m c) (fun t _ => flushed_eq m c t) cover

/-- THE RESULT: the host's reshape of the output array, which the region left at the dequantised array. -/
theorem result_eq (c : Dev nD) :
    Pipeline.afterTail₀ cfgs (dats m) 0 (V0 m) [hostOps1] c main_v1
      = shapeCast S8192x8192 (whole m c) shapeCasts_S8192x64x128_S8192x8192 := by
  have hw : Pipeline.withArrays (cfgs 0).spec c (V0 m c) (fun w => (dats m 0 c).arrAt w (cfgs 0).N) (Proc.devRef .tc main_v0)
      = whole m c :=
    (Pipeline.withArrays_arr (cfgs 0).spec launch0.win.arr_inj c _ _ 2).trans (final m c)
  unfold Pipeline.afterTail₀
  show StableHlo.after hostOps1 _ (Proc.devRef .tc main_v1) = _
  after_results
  rw [hw]
  rfl

/-- THE RUN, READ: every execution of the kernel's program ends with the result at the reshape of the dequantised array of
    its arguments, the arguments unchanged. -/
theorem run : θ_run defs (onTc (τ := τ) (main (F := F))) ⟨m, fun _ => 0, ρ⟩ fun r => ∀ c : Dev nD,
      r.2.mem ((c.tc : Thread nD τ).loc main_v1)
        = shapeCast S8192x8192 (deq (n := 8192) (g := 64) (m ((c.tc : Thread nD τ).loc main_arg0)) (m ((c.tc : Thread nD τ).loc main_arg1)))
            shapeCasts_S8192x64x128_S8192x8192
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (Pipeline.mem_restRefs_of main_v1 rfl (fun w => by fin_cases w <;> decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Unpack

end
-- ==== Proof.RefSide.lean ====
/-
  The reference computes the dequantised array.

  The reference forms both field arrays of the whole `weight` array as integers, gives each a trailing unit
  axis, joins them along it, flattens to 128 lanes per group, converts to float and multiplies by the scales
  broadcast over the lanes. Read at entry `(r, q, l)`: the flattening keeps row-major positions, so the integer
  there is entry `(l / 2, l % 2)` of the joined array — the low field of word `l / 2` on even lanes, the high
  field on odd lanes — and the broadcast scale is scale `(r, q, 0)`. The host's arithmetic shift is the vector
  unit's. So the array before the reference's last reshape is the dequantised array of its two arguments.
-/
import proofs.«431269_j74440373174409_4_alg».proof.Proof.Gen.ReferenceIdeal.Run
import proofs.«431269_j74440373174409_4_alg».proof.Proof.Gen.ReferenceIdeal.Read
import proofs.«431269_j74440373174409_4_alg».proof.Proof.Dequant
import Idealize.ShloMosaic.Lib.Pipeline.Value
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read Cert.Dequant

variable {F : FTy → Type} [FloatOps F]

/-- Lane `l` of group `(r, q)` sits, before the flattening, at word `l / 2` and position `l % 2` of the joined axis. -/
theorem lane_split (r : Fin 8192) (q : Fin 64) (l : Fin 128) :
    idx_main_v13 (ix3 r q l) = ix4 r q ⟨l.val / 2, by omega⟩ ⟨l.val % 2, Nat.mod_lt _ (by decide)⟩ := by
  funext a; apply Fin.ext
  match a with
  | ⟨0, _⟩ => show ((r.val * 64 + q.val) * 128 + l.val) / 8192 = r.val; omega
  | ⟨1, _⟩ => show ((r.val * 64 + q.val) * 128 + l.val) / 128 % 64 = q.val; omega
  | ⟨2, _⟩ => show ((r.val * 64 + q.val) * 128 + l.val) / 2 % 64 = l.val / 2; omega
  | ⟨3, _⟩ => show ((r.val * 64 + q.val) * 128 + l.val) % 2 = l.val % 2; omega

/-- Dropping the trailing unit axis of an index. -/
theorem drop_unit_low (r : Fin 8192) (q : Fin 64) (k : Fin 64) :
    idx_main_v10 (ix4 r q k ⟨0, Nat.one_pos⟩) = ix3 r q k :=
  funext fun a => match a with | ⟨0, _⟩ => rfl | ⟨1, _⟩ => rfl | ⟨2, _⟩ => rfl
theorem drop_unit_high (r : Fin 8192) (q : Fin 64) (k : Fin 64) :
    idx_main_v11 (ix4 r q k ⟨0, Nat.one_pos⟩) = ix3 r q k :=
  funext fun a => match a with | ⟨0, _⟩ => rfl | ⟨1, _⟩ => rfl | ⟨2, _⟩ => rfl

/-- The scale an entry is multiplied by is its group's. -/
theorem scale_at (r : Fin 8192) (q : Fin 64) (l : Fin 128) :
    idx_main_v15 (ix3 r q l) = scaleIdx (n := 8192) (g := 64) (ix3 r q l) :=
  funext fun a => match a with | ⟨0, _⟩ => rfl | ⟨1, _⟩ => rfl | ⟨2, _⟩ => rfl

/-- The joined integer array at lane `l` of group `(r, q)`: the field that lane reads of word `l / 2`. -/
theorem joined_at (x0 : (⟨S8192x64x64, .i32⟩ : BufTy).Contents (Elt F)) (r : Fin 8192) (q : Fin 64) (l : Fin 128) :
    val_main_v12 (F := F) x0 (idx_main_v13 (ix3 r q l)) = field l.val (x0 (ix3 r q ⟨l.val / 2, by omega⟩)) := by
  have hl : l.val % 2 < 2 := Nat.mod_lt _ (by decide)
  rw [lane_split]
  unfold val_main_v12 field
  by_cases h : l.val % 2 = 0
  · rw [if_pos h]
    refine (concatenate_pair_apply_left 3 _ _ concatenates_S8192x64x64x1_S8192x64x64x1_S8192x64x64x2_d3
      (ix4 r q ⟨l.val / 2, by omega⟩ ⟨l.val % 2, hl⟩) rfl (ix4 r q ⟨l.val / 2, by omega⟩ ⟨0, Nat.one_pos⟩)
      (fun d => match d with
        | ⟨0, _⟩ => rfl
        | ⟨1, _⟩ => rfl
        | ⟨2, _⟩ => rfl
        | ⟨3, _⟩ => h.symm)).trans ?_
    rw [val_main_v10_apply, drop_unit_low, val_main_v3_apply, val_main_v1_apply, val_main_v0_apply, val_main_c_apply,
      val_main_v2_apply, val_main_c_0_apply]
    rfl
  · rw [if_neg h]
    refine (concatenate_pair_apply_right 3 _ _ concatenates_S8192x64x64x1_S8192x64x64x1_S8192x64x64x2_d3
      (ix4 r q ⟨l.val / 2, by omega⟩ ⟨l.val % 2, hl⟩) rfl rfl (ix4 r q ⟨l.val / 2, by omega⟩ ⟨0, Nat.one_pos⟩)
      (fun d => match d with
        | ⟨0, _⟩ => fun _ => rfl
        | ⟨1, _⟩ => fun _ => rfl
        | ⟨2, _⟩ => fun _ => rfl
        | ⟨3, _⟩ => fun hne => absurd rfl hne)
      (by show 0 + 1 = l.val % 2; omega)).trans ?_
    rw [val_main_v11_apply, drop_unit_high, val_main_v9_apply, val_main_v7_apply, val_main_v5_apply, val_main_v4_apply,
      val_main_c_1_apply, val_main_v6_apply, val_main_c_2_apply, val_main_v8_apply, val_main_c_3_apply, shrsi_host]
    rfl

/-- THE REFERENCE'S ARRAY BEFORE ITS LAST RESHAPE is the dequantised array of its arguments. -/
theorem product_eq (x0 : (⟨S8192x64x64, .i32⟩ : BufTy).Contents (Elt F)) (x1 : (⟨S8192x64x1, .f32⟩ : BufTy).Contents (Elt F)) :
    val_main_v16 (F := F) x0 x1 = deq (n := 8192) (g := 64) x0 x1 := by
  funext j
  obtain ⟨r, q, l, rfl⟩ : ∃ (r : Fin 8192) (q : Fin 64) (l : Fin 128), j = ix3 r q l := ⟨j 0, j 1, j 2, eq_ix3 j⟩
  rw [val_main_v16_apply, val_main_v14_apply, val_main_v13_apply, val_main_v15_apply, joined_at, scale_at]
  rfl

end Cert.ReferenceIdeal.RefValue

end
-- ==== Proof.lean ====
/-
  The kernel unpacks `weight` — two signed four-bit numbers per 32-bit word, stored offset by eight, the low
  field on even lanes and the high field on odd lanes of a group of 128 — converts each number to a float and
  multiplies it by its group's scale; a reshape to `[8192, 8192]` follows. The reference does the same on the
  whole arrays with host operations. Both results are the same reshape of ONE array, the dequantised array
  `Cert.Dequant.deq` of the two arguments (Proof/Dequant.lean):

  * the kernel's side (Proof/Payload.lean, Proof/Pieces.lean, Proof/KernelValue.lean): one trip of the body's loop
    stores the dequantised values of eight groups; the eight trips fill a grid point's block; the 128 blocks tile
    the output array;
  * the reference's side (Proof/RefSide.lean): its operations read at an index, one at a time.

  The two sides apply the same two float operations (an integer-to-float conversion and one product) to the same
  operands at every index, so no law of the extended reals is needed and the precondition is never opened. The
  idealisation rewrote nothing, so `preserves` is trivial; the kernel's two frames are the generated ones, and the
  reference's frame is its run with the result dropped.
-/
import proofs.«431269_j74440373174409_4_alg».proof.Defs
import proofs.«431269_j74440373174409_4_alg».proof.Proof.Gen.Kernel
import proofs.«431269_j74440373174409_4_alg».proof.Proof.Gen.Kernel.Skeleton
import proofs.«431269_j74440373174409_4_alg».proof.Proof.Gen.Kernel.Loops
import proofs.«431269_j74440373174409_4_alg».proof.Proof.Gen.Kernel.Launch
import proofs.«431269_j74440373174409_4_alg».proof.Proof.Gen.Kernel.Points
import proofs.«431269_j74440373174409_4_alg».proof.Proof.Gen.Kernel.Frame
import proofs.«431269_j74440373174409_4_alg».proof.Proof.Gen.KernelIdeal
import proofs.«431269_j74440373174409_4_alg».proof.Proof.Gen.KernelIdeal.Skeleton
import proofs.«431269_j74440373174409_4_alg».proof.Proof.Gen.KernelIdeal.Loops
import proofs.«431269_j74440373174409_4_alg».proof.Proof.Gen.KernelIdeal.Launch
import proofs.«431269_j74440373174409_4_alg».proof.Proof.Gen.KernelIdeal.Points
import proofs.«431269_j74440373174409_4_alg».proof.Proof.Gen.KernelIdeal.Frame
import proofs.«431269_j74440373174409_4_alg».proof.Proof.Gen.ReferenceIdeal
import proofs.«431269_j74440373174409_4_alg».proof.Proof.Gen.ReferenceIdeal.Run
import proofs.«431269_j74440373174409_4_alg».proof.Proof.Gen.ReferenceIdeal.Read
import proofs.«431269_j74440373174409_4_alg».proof.Proof.Gen.Pre_finite_inputs
import proofs.«431269_j74440373174409_4_alg».proof.Proof.KernelValue
import proofs.«431269_j74440373174409_4_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the reshape of the dequantised array of arguments that agree. -/
theorem algebraic : Cert.algebraic_KernelIdeal_ReferenceIdeal := by
  intro m ρ m' ρ' _ hagree
  refine ⟨_, Cert.KernelIdeal.Unpack.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq]
  unfold Cert.ReferenceIdeal.Read.val_main_v17
  rw [Cert.ReferenceIdeal.RefValue.product_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
